-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S_ : Shape := ⟨0, ![]⟩
abbrev S1x1600000 : Shape := ⟨2, ![1, 1600000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000

variable [Facts]

def fn_part2 {F : FTy → Type} [FloatOps F] (main_arg1 : IVec S2x1600000 32) (main_arg8 : FVec F S64x64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : IVec S1x1600000 32 := (extractStridedSlice S1x1600000 ![0, 0] · slices_S2x1600000_S1x1600000_0_0) main_arg1
  let main_v40 : IVec S1600000 32 := shapeCast S1600000 main_v39 shapeCasts_S1x1600000_S1600000
  let main_c_14 : IVec S_ 32 := constantI S_ 32 0#32
  let main_v41 : IVec S1600000 32 := broadcastInDim S1600000 ![] bcast_S_S1600000 main_c_14
  let main_v42 : IVec S1600000 1 := cmpi .sge main_v40 main_v41
  let main_c_15 : IVec S_ 1 := constantI S_ 1 1#1
  let main_v43 : IVec S_ 1 := (fun x v => Host.reduce IntOp.andi x v reducesTo_S1600000_S_d0 h_S_) main_v42 main_c_15
  let main_v44 : IVec S_ 1 := andi main_v38 main_v43
  main_v44

def fn_part1 {F : FTy → Type} [FloatOps F] (main_arg1 : IVec S2x1600000 32) (main_arg5 : FVec F S64x64 .f32) (main_arg6 : FVec F S64x64 .f32) (main_arg7 : FVec F S64 .f32) (main_arg8 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_v33

def fn {F : FTy → Type} [FloatOps F] (main_arg0 : FVec F S50000x64 .f32) (main_arg1 : IVec S2x1600000 32) (main_arg2 : FVec F S1600000 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_v13 main_v16
-- ==== Kernel.lean ====
abbrev S50000x64 : Shape := ⟨2, ![50000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x1600000 : Shape := ⟨2, ![1, 1600000]⟩
abbrev S128x64 : Shape := ⟨2, ![128, 64]⟩
abbrev S1600000x1 : Shape := ⟨2, ![1600000, 1]⟩
abbrev S1600000x64 : Shape := ⟨2, ![1600000, 64]⟩
abbrev S_ : Shape := ⟨0, ![]⟩
abbrev S1x64 : Shape := ⟨2, ![1, 64]⟩
abbrev S2000x64 : Shape := ⟨2, ![2000, 64]⟩
abbrev S2000x128 : Shape := ⟨2, ![2000, 128]⟩

abbrev nBuf : Space → Nat
  | .hbm => 45
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S64x64, .f32⟩
  | .hbm, ⟨14, _⟩ => ⟨S64x64, .f32⟩
  | .hbm, ⟨15, _⟩ => ⟨S128x64, .f32⟩
  | .hbm, ⟨16, _⟩ => ⟨S64x64, .f32⟩
  | .hbm, ⟨17, _⟩ => ⟨S64x64, .f32⟩
  | .hbm, ⟨18, _⟩ => ⟨S128x64, .f32⟩
  | .hbm, ⟨19, _⟩ => ⟨S50000x64, .bf16⟩
  | .hbm, ⟨20, _⟩ => ⟨S1600000x1, .i32⟩
  | .hbm, ⟨21, _⟩ => ⟨S1600000x64, .bf16⟩
  | .hbm, ⟨22, _⟩ => ⟨S1600000x64, .f32⟩
  | .hbm, ⟨23, _⟩ => ⟨S1600000x1, .f32⟩
  | .hbm, ⟨24, _⟩ => ⟨S1600000x64, .f32⟩
  | .hbm, ⟨25, _⟩ => ⟨S1600000x64, .f32⟩
  | .hbm, ⟨26, _⟩ => ⟨S_, .f32⟩
  | .hbm, ⟨27, _⟩ => ⟨S50000x64, .f32⟩
  | .hbm, ⟨28, _⟩ => ⟨S1600000x1, .i32⟩
  | .hbm, ⟨29, _⟩ => ⟨S50000x64, .f32⟩
  | .hbm, ⟨30, _⟩ => ⟨S1x64, .f32⟩
  | .hbm, ⟨31, _⟩ => ⟨S50000x64, .f32⟩
  | .hbm, ⟨32, _⟩ => ⟨S50000x64, .bf16⟩
  | .hbm, ⟨33, _⟩ => ⟨S1600000x1, .i32⟩
  | .hbm, ⟨34, _⟩ => ⟨S1600000x64, .bf16⟩
  | .hbm, ⟨35, _⟩ => ⟨S1600000x64, .f32⟩
  | .hbm, ⟨36, _⟩ => ⟨S1600000x1, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S50000x64, .f32⟩
  | .hbm, ⟨41, _⟩ => ⟨S1600000x1, .i32⟩
  | .hbm, ⟨42, _⟩ => ⟨S50000x64, .f32⟩
  | .hbm, ⟨43, _⟩ => ⟨S1x64, .f32⟩
  | .hbm, ⟨44, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S128x64, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S128x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call1_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x64_S64x64_1_0 : S64x64.Transposes [1, 0] S64x64
  concatenates_S64x64_S64x64_S128x64_d0 : Shape.Concatenates [S64x64, S64x64] S128x64 0
  bitsLt_bf16_f32 : FTy.bits .bf16 < FTy.bits .f32
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  concatenates_S2000x64_S2000x64_S2000x128_d1 : Shape.Concatenates [S2000x64, S2000x64] S2000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S50000x64.size a
  hwx0_4 : ∀ i : grid0.Coords, EltTy.bits .f32 = 32 ∨ (Rect.block (s := S50000x64) S2000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v18) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S2000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v29) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x1600000 : Shape := ⟨2, ![1, 1600000]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1600000x1, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S1600000x64, .f32⟩
  | .hbm, ⟨24, _⟩ => ⟨S1600000x64, .f32⟩
  | .hbm, ⟨25, _⟩ => ⟨S_, .f32⟩
  | .hbm, ⟨26, _⟩ => ⟨S50000x64, .f32⟩
  | .hbm, ⟨27, _⟩ => ⟨S1600000x1, .i32⟩
  | .hbm, ⟨28, _⟩ => ⟨S50000x64, .f32⟩
  | .hbm, ⟨29, _⟩ => ⟨S64x64, .f32⟩
  | .hbm, ⟨30, _⟩ => ⟨S50000x64, .f32⟩
  | .hbm, ⟨31, _⟩ => ⟨S1x64, .f32⟩
  | .hbm, ⟨32, _⟩ => ⟨S50000x64, .f32⟩
  | .hbm, ⟨33, _⟩ => ⟨S50000x64, .f32⟩
  | .hbm, ⟨34, _⟩ => ⟨S64x64, .f32⟩
  | .hbm, ⟨35, _⟩ => ⟨S50000x64, .f32⟩
  | .hbm, ⟨36, _⟩ => ⟨S50000x64, .f32⟩
  | .hbm, ⟨37, _⟩ => ⟨S_, .f32⟩
  | .hbm, ⟨38, _⟩ => ⟨S50000x64, .f32⟩
  | .hbm, ⟨39, _⟩ => ⟨S50000x64, .f32⟩
  | .hbm, ⟨40, _⟩ => ⟨S1600000x1, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S1600000x64, .f32⟩
  | .hbm, ⟨51, _⟩ => ⟨S1600000x64, .f32⟩
  | .hbm, ⟨52, _⟩ => ⟨S_, .f32⟩
  | .hbm, ⟨53, _⟩ => ⟨S50000x64, .f32⟩
  | .hbm, ⟨54, _⟩ => ⟨S1600000x1, .i32⟩
  | .hbm, ⟨55, _⟩ => ⟨S50000x64, .f32⟩
  | .hbm, ⟨56, _⟩ => ⟨S64x64, .f32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x64, .f32⟩
  | .hbm, ⟨61, _⟩ => ⟨S64x64, .f32⟩
  | .hbm, ⟨62, _⟩ => ⟨S50000x64, .f32⟩
  | .hbm, ⟨63, _⟩ => ⟨S50000x64, .f32⟩
  | .hbm, ⟨64, _⟩ => ⟨S_, .f32⟩
  | .hbm, ⟨65, _⟩ => ⟨S50000x64, .f32⟩
  | .hbm, ⟨66, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x64_S50000x64_1_0_0_1_n_n_wf : DotDims.WF S50000x64 S64x64 S50000x64 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.Spec.lean ====
/-
  One graph-convolution layer as a function of whole arrays, at the ideal values.

  For aggregated neighbour features `agg` and node features `y` (both 50000 × 64), weight matrices `wrel`, `wroot`
  (64 × 64, row = output feature) and a bias `b`, the layer's value at node p and output feature q is

      max ( (∑ k, agg[p,k] · wrel[q,k]  +  b[q])  +  ∑ k, y[p,k] · wroot[q,k] ,  0 ).

  The same number is obtained from ONE product with the two transposed weight matrices stacked on top of each other
  (rows 0..63 the first, rows 64..127 the second) applied to the row (agg[p,·], y[p,·]) of length 128: a sum over 128
  positions splits into the sum over its first 64 and the sum over its last 64, and addition on the extended reals is
  commutative and associative, so the bias may be added before or after the second sum. No finiteness is needed.
-/
import Idealize.ShloMosaic.Lib.ValueIdx
import Idealize.ShloMosaic.PureOps.Ideal.Laws

noncomputable section

namespace Cert.Spec

open Idealize.ShloMosaic Idealize.ShloMosaic.ValueIdx

abbrev SN : Shape := ⟨2, ![50000, 64]⟩
abbrev SW : Shape := ⟨2, ![64, 64]⟩
abbrev SWW : Shape := ⟨2, ![128, 64]⟩
abbrev SB : Shape := ⟨1, ![64]⟩
abbrev SB2 : Shape := ⟨2, ![1, 64]⟩

/-- Position k of the first half of a row of length 128. -/
abbrev lo (k : Fin 64) : Fin 128 := ⟨k.val, by omega⟩
/-- Position k of the second half of a row of length 128. -/
abbrev hi (k : Fin 64) : Fin 128 := ⟨k.val + 64, by omega⟩

/-- A sum over 128 positions is the sum over the first 64 plus the sum over the last 64. -/
theorem sum_halves {M : Type*} [AddCommMonoid M] (f : Fin 128 → M) :
    ∑ k : Fin 128, f k = (∑ k : Fin 64, f (lo k)) + ∑ k : Fin 64, f (hi k) := by
  have h := Fin.sum_univ_add (M := M) (a := 64) (b := 64) (fun i : Fin (64 + 64) => f ⟨i.val, by omega⟩)
  simpa using h

/-- The layer's value at node p, output feature q. -/
def layerAt (agg y : FVec Ideal SN .f32) (wrel : FVec Ideal SW .f32) (b : FVec Ideal SB .f32) (wroot : FVec Ideal SW .f32)
    (p : Fin 50000) (q : Fin 64) : Ideal .f32 :=
  max (((∑ k : Fin 64, agg (ix2 p k) * wrel (ix2 q k)) + b (ix1 q)) + ∑ k : Fin 64, y (ix2 p k) * wroot (ix2 q k))
    (Ideal.ofBits .f32 0x00000000#32)

/-- One layer: every node's new features. -/
def layer (agg y : FVec Ideal SN .f32) (wrel : FVec Ideal SW .f32) (b : FVec Ideal SB .f32) (wroot : FVec Ideal SW .f32) :
    FVec Ideal SN .f32 := fun i => layerAt agg y wrel b wroot ⟨(i 0).val, (i 0).isLt⟩ ⟨(i 1).val, (i 1).isLt⟩

/-- The stacked form at node p, output feature q: the row (agg[p,·], y[p,·]) against a 128 × 64 matrix, a bias row added. -/
def stackedAt (agg y : FVec Ideal SN .f32) (ws : FVec Ideal SWW .f32) (b2 : FVec Ideal SB2 .f32)
    (p : Fin 50000) (q : Fin 64) : Ideal .f32 :=
  max (((∑ k : Fin 64, agg (ix2 p k) * ws (ix2 (lo k) q)) + ∑ k : Fin 64, y (ix2 p k) * ws (ix2 (hi k) q))
      + b2 (ix2 (0 : Fin 1) q))
    (Ideal.ofBits .f32 0x00000000#32)

/-- The stacked form as a whole array. -/
def stacked (agg y : FVec Ideal SN .f32) (ws : FVec Ideal SWW .f32) (b2 : FVec Ideal SB2 .f32) : FVec Ideal SN .f32 :=
  fun i => stackedAt agg y ws b2 ⟨(i 0).val, (i 0).isLt⟩ ⟨(i 1).val, (i 1).isLt⟩

/-- The same at one node and one output feature. -/
theorem stackedAt_eq_layerAt (agg y : FVec Ideal SN .f32) (ws : FVec Ideal SWW .f32) (b2 : FVec Ideal SB2 .f32)
    (wrel : FVec Ideal SW .f32) (b : FVec Ideal SB .f32) (wroot : FVec Ideal SW .f32)
    (h1 : ∀ (k q : Fin 64), ws (ix2 (lo k) q) = wrel (ix2 q k))
    (h2 : ∀ (k q : Fin 64), ws (ix2 (hi k) q) = wroot (ix2 q k))
    (hb : ∀ q : Fin 64, b2 (ix2 (0 : Fin 1) q) = b (ix1 q)) (p : Fin 50000) (q : Fin 64) :
    stackedAt agg y ws b2 p q = layerAt agg y wrel b wroot p q := by
  unfold stackedAt layerAt
  simp only [h1, h2, hb]
  rw [add_right_comm]

/-- When the 128 × 64 matrix is the first weight matrix transposed on top of the second transposed, and the bias row is
    the bias, the stacked form IS the layer. -/
theorem stacked_eq_layer (agg y : FVec Ideal SN .f32) (ws : FVec Ideal SWW .f32) (b2 : FVec Ideal SB2 .f32)
    (wrel : FVec Ideal SW .f32) (b : FVec Ideal SB .f32) (wroot : FVec Ideal SW .f32)
    (h1 : ∀ (k q : Fin 64), ws (ix2 (lo k) q) = wrel (ix2 q k))
    (h2 : ∀ (k q : Fin 64), ws (ix2 (hi k) q) = wroot (ix2 q k))
    (hb : ∀ q : Fin 64, b2 (ix2 (0 : Fin 1) q) = b (ix1 q)) :
    stacked agg y ws b2 = layer agg y wrel b wroot :=
  funext fun _ => stackedAt_eq_layerAt agg y ws b2 wrel b wroot h1 h2 hb _ _

/-- Two layers over one graph: `agg` sends node features to their edge-weighted neighbour sums; the second layer works on
    the first layer's output. -/
def net (agg : FVec Ideal SN .f32 → FVec Ideal SN .f32) (x : FVec Ideal SN .f32)
    (wrel1 : FVec Ideal SW .f32) (b1 : FVec Ideal SB .f32) (wroot1 : FVec Ideal SW .f32)
    (wrel2 : FVec Ideal SW .f32) (b2 : FVec Ideal SB .f32) (wroot2 : FVec Ideal SW .f32) : FVec Ideal SN .f32 :=
  layer (agg (layer (agg x) x wrel1 b1 wroot1)) (layer (agg x) x wrel1 b1 wroot1) wrel2 b2 wroot2

end Cert.Spec

end
-- ==== Proof.KernelBody.lean ====
/-
  The body of the dense step at one entry of its output block.

  A block of 2000 nodes: the body rounds the aggregated block and the feature block to bf16 (the identity on the
  ideal values), puts them side by side as rows of length 128, multiplies by the 128 × 64 stacked weights, adds the
  bias row and clamps below at 0. At row r and output feature q this is

      max ( ∑ k<64, agg[r,k] · w[k,q]  +  ∑ k<64, y[r,k] · w[64+k,q]  +  bias[0,q] ,  0 ):

  the product into the zero accumulator is the sum over the 128 contraction positions, the first 64 of which read the
  left piece of the concatenated row and the last 64 the right piece. The two pallas_calls print the same body twice.
-/
import proofs.«411121_j32925219291717_2_alg».proof.Proof.Gen.KernelIdeal.Skeleton
import proofs.«411121_j32925219291717_2_alg».proof.Proof.LibPlainDot
import proofs.«411121_j32925219291717_2_alg».proof.Proof.Spec
import Idealize.ShloMosaic.Lib.Pipeline.Value
import Idealize.ShloMosaic.Lib.ValueIdx

noncomputable section

namespace Cert.KernelIdeal.Body

open Idealize.ShloMosaic Idealize.ShloMosaic.ValueIdx Cert.KernelIdeal Cert.KernelIdeal.Gen Cert.Spec

/-- A position in the first half of the concatenated row reads the left piece. -/
theorem cat_lo (a b : FVec Ideal S2000x64 .bf16) (r : Fin 2000) (k : Fin 64) :
    concatenate S2000x128 1 [⟨S2000x64, a⟩, ⟨S2000x64, b⟩] concatenates_S2000x64_S2000x64_S2000x128_d1 (ix2 r (lo k)) = a (ix2 r k) :=
  concatenate_pair_apply_left 1 a b _ (ix2 r (lo k)) rfl (ix2 r k) (fun c => match c with | ⟨0, _⟩ => rfl | ⟨1, _⟩ => rfl)

/-- A position in the second half reads the right piece, 64 positions earlier. -/
theorem cat_hi (a b : FVec Ideal S2000x64 .bf16) (r : Fin 2000) (k : Fin 64) :
    concatenate S2000x128 1 [⟨S2000x64, a⟩, ⟨S2000x64, b⟩] concatenates_S2000x64_S2000x64_S2000x128_d1 (ix2 r (hi k)) = b (ix2 r k) :=
  concatenate_pair_apply_right 1 a b _ (ix2 r (hi k)) rfl rfl (ix2 r k)
    (fun c hc => match c with | ⟨0, _⟩ => rfl | ⟨1, _⟩ => absurd rfl hc) rfl

/-- The bias row broadcast over the block reads the bias at the entry's column. -/
theorem bias_at (x3 : Vec Ideal S1x64 .f32) (r : Fin 2000) (q : Fin 64) :
    broadcastTo S2000x64 (shapeCast S1x64 x3 shapeCasts_S1x64_S1x64) broadcasts_S1x64_S2000x64 (ix2 r q) = x3 (ix2 (0 : Fin 1) q) := by
  rw [shapeCast_self]
  exact broadcastTo_apply x3 broadcasts_S1x64_S2000x64 (ix2 r q) (ix2 (0 : Fin 1) q) (fun a => match a with
    | ⟨0, _⟩ => by show (0 : Nat) = if (1 : Nat) = 1 then 0 else _; rw [if_pos rfl]
    | ⟨1, _⟩ => by show q.val = if (64 : Nat) = 1 then 0 else q.val; rw [if_neg (by decide)])

/-- The first pallas_call's body at row r, output feature q. -/
theorem pay0_at (x0 x1 : Vec Ideal S2000x64 .f32) (x2 : Vec Ideal S128x64 .f32) (x3 : Vec Ideal S1x64 .f32) (r : Fin 2000) (q : Fin 64) :
    k0_pay1 (F := Ideal) x0 x1 x2 x3 (ix2 r q)
      = max (((∑ k : Fin 64, x0 (ix2 r k) * x2 (ix2 (lo k) q)) + ∑ k : Fin 64, x1 (ix2 r k) * x2 (ix2 (hi k) q))
          + x3 (ix2 (0 : Fin 1) q)) (Ideal.ofBits .f32 0x00000000#32) := by
  unfold k0_pay1
  rw [maximumf_apply, addf_apply, broadcast_apply, bias_at]
  dsimp only [Idealize.ShloMosaic.matmul]
  rw [PlainDot.matmul_zero_apply dot_S2000x128_S128x64_S2000x64_1_0_0_1_n_n rfl rfl rfl rfl rfl rfl rfl rfl, sum_halves]
  simp only [cat_lo, cat_hi, truncf_apply, shapeCast_self]
  rfl

/-- The second pallas_call's body at row r, output feature q: the same function. -/
theorem pay1_at (x0 x1 : Vec Ideal S2000x64 .f32) (x2 : Vec Ideal S128x64 .f32) (x3 : Vec Ideal S1x64 .f32) (r : Fin 2000) (q : Fin 64) :
    k1_pay1 (F := Ideal) x0 x1 x2 x3 (ix2 r q)
      = max (((∑ k : Fin 64, x0 (ix2 r k) * x2 (ix2 (lo k) q)) + ∑ k : Fin 64, x1 (ix2 r k) * x2 (ix2 (hi k) q))
          + x3 (ix2 (0 : Fin 1) q)) (Ideal.ofBits .f32 0x00000000#32) := by
  unfold k1_pay1
  rw [maximumf_apply, addf_apply, broadcast_apply, bias_at]
  dsimp only [Idealize.ShloMosaic.matmul]
  rw [PlainDot.matmul_zero_apply dot_S2000x128_S128x64_S2000x64_1_0_0_1_n_n rfl rfl rfl rfl rfl rfl rfl rfl, sum_halves]
  simp only [cat_lo, cat_hi, truncf_apply, shapeCast_self]
  rfl

end Cert.KernelIdeal.Body

end
-- ==== Proof.KernelRegion.lean ====
/-
  Each pallas_call's output array as one function of the four arrays it reads.

  The grid has 25 points; point t stages rows 2000·t .. 2000·t+1999 of the aggregated features and of the node features,
  the whole 128 × 64 stacked weights and the whole bias row, and writes back rows 2000·t .. 2000·t+1999 of the output. The
  body's block (KernelBody) read at row r of point t is therefore the stacked form (Spec) at node 2000·t + r, and the 25
  blocks tile the 50000 rows: row i lies in the block of point i / 2000. So the output array IS the stacked form of the four
  arrays as the region finds them, whatever they hold.
-/
import proofs.«411121_j32925219291717_2_alg».proof.Proof.Gen.KernelIdeal.Frame
import proofs.«411121_j32925219291717_2_alg».proof.Proof.KernelBody
import Idealize.ShloMosaic.Lib.Pipeline.Value

set_option maxRecDepth 16384

noncomputable section

namespace Cert.KernelIdeal.Region

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec Cert.KernelIdeal.Body

theorem hz : (![0, 0] : Fin 2 → Nat) = fun _ => 0 := funext fun a => by fin_cases a <;> rfl

/-- The block the body leaves, as one function of the four input blocks: the stacked form with block-local rows. -/
def blockFn (x0 x1 : Vec Ideal S2000x64 .f32) (x2 : Vec Ideal S128x64 .f32) (x3 : Vec Ideal S1x64 .f32) : Vec Ideal S2000x64 .f32 :=
  fun j => max (((∑ k : Fin 64, x0 (ix2 ⟨(j 0).val, (j 0).isLt⟩ k) * x2 (ix2 (lo k) ⟨(j 1).val, (j 1).isLt⟩))
      + ∑ k : Fin 64, x1 (ix2 ⟨(j 0).val, (j 0).isLt⟩ k) * x2 (ix2 (hi k) ⟨(j 1).val, (j 1).isLt⟩))
      + x3 (ix2 (0 : Fin 1) ⟨(j 1).val, (j 1).isLt⟩)) (Ideal.ofBits .f32 0x00000000#32)

/-- When the four blocks are rows n·2000 .. of two 50000-row arrays, a whole 128 × 64 array and a whole bias row, the block
    at row r, column q is the stacked form of the arrays at node n·2000 + r. -/
theorem block_read (A Y : FVec Ideal SN .f32) (WS : FVec Ideal SWW .f32) (B2 : FVec Ideal SB2 .f32)
    (x0 x1 : Vec Ideal S2000x64 .f32) (x2 : Vec Ideal S128x64 .f32) (x3 : Vec Ideal S1x64 .f32) (n : Nat) (hn : n < 25)
    (h0 : ∀ (r : Fin 2000) (k : Fin 64), x0 (ix2 r k) = A (ix2 (⟨n * 2000 + r.val, by omega⟩ : Fin 50000) k))
    (h1 : ∀ (r : Fin 2000) (k : Fin 64), x1 (ix2 r k) = Y (ix2 (⟨n * 2000 + r.val, by omega⟩ : Fin 50000) k))
    (h2 : ∀ (k : Fin 128) (q : Fin 64), x2 (ix2 k q) = WS (ix2 k q))
    (h3 : ∀ q : Fin 64, x3 (ix2 (0 : Fin 1) q) = B2 (ix2 (0 : Fin 1) q))
    (r : Fin 2000) (q : Fin 64) :
    blockFn x0 x1 x2 x3 (ix2 r q) = stackedAt A Y WS B2 (⟨n * 2000 + r.val, by omega⟩ : Fin 50000) q := by
  unfold blockFn stackedAt
  simp only [h0, h1, h2, h3]

/-! ## The first pallas_call -/

/-- The first body's block is the block function of its input blocks. -/
theorem out0_eq (x0 x1 : Vec Ideal S2000x64 .f32) (x2 : Vec Ideal S128x64 .f32) (x3 : Vec Ideal S1x64 .f32) :
    out0_4 (F := Ideal) x0 x1 x2 x3 = blockFn x0 x1 x2 x3 := by
  unfold out0_4
  rw [View.canon_unit_zero hz]
  simp only [View.ld_unit_zero (S := S2000x64) hz, View.ld_unit_zero (S := S128x64) hz, View.ld_unit_zero (S := S1x64) hz]
  funext j
  obtain ⟨r, q, rfl⟩ : ∃ (r : Fin 2000) (q : Fin 64), j = ix2 r q := ⟨j 0, j 1, eq_ix2 j⟩
  exact pay0_at x0 x1 x2 x3 r q

/-- The index maps over the grid: the two row-blocked inputs and the output move with the point, the weights and the
    bias stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

section
variable (V : (c : Dev nD) → (b : Ref sig .tc) → Buf (Elt Ideal) ((c : Thread nD τ).loc b))

/-- The input blocks at a point, at their literal types. -/
abbrev b0_0 (c : Dev nD) (t : Fin cfg0.N) : Vec Ideal S2000x64 .f32 := iblk0 V c 0 t
abbrev b0_1 (c : Dev nD) (t : Fin cfg0.N) : Vec Ideal S2000x64 .f32 := iblk0 V c 1 t
abbrev b0_2 (c : Dev nD) (t : Fin cfg0.N) : Vec Ideal S128x64 .f32 := iblk0 V c 2 t
abbrev b0_3 (c : Dev nD) (t : Fin cfg0.N) : Vec Ideal S1x64 .f32 := iblk0 V c 3 t

/-- WHAT POINT t WRITES BACK is block t of the stacked form of the four arrays as the region finds them. -/
theorem flushed0_eq (c : Dev nD) (t : Fin cfg0.N) :
    (dat0 V c).flushed 4 t
      = ((cfg0.win 4).blk t).view.read (Elt Ideal) (stacked (V c main_v18) (V c main_arg0) (V c main_v6) (V c main_v19)) := by
  show (cfg0.win 4).cut (grid0.coords t) ((dat0 V c).after 4 t) = _
  rw [after0_4, out0_eq]
  obtain ⟨e00, e01, e10, e11, e20, e21, e30, e31, e40, e41⟩ := idx_facts0 t
  have ht : t.val < 25 := Nat.lt_of_lt_of_eq t.isLt N_0
  funext j
  have hj0 : (j 0).val < 2000 := (j 0).isLt
  have hj1 : (j 1).val < 64 := (j 1).isLt
  have key := block_read (V c main_v18) (V c main_arg0) (V c main_v6) (V c main_v19)
    (b0_0 V c t) (b0_1 V c t) (b0_2 V c t) (b0_3 V c t) t.val ht
    (fun r k => by
      show V c main_v18 (((cfg0.win 0).blk t).view.emb (ix2 r k)) = _
      refine congrArg (V c main_v18) (funext fun a => Fin.ext ?_)
      match a with
      | ⟨0, _⟩ => show win0_0.index t (0 : Fin 2) * 2000 + 1 * r.val = t.val * 2000 + r.val; omega
      | ⟨1, _⟩ => show win0_0.index t (1 : Fin 2) * 64 + 1 * k.val = k.val; omega)
    (fun r k => by
      show V c main_arg0 (((cfg0.win 1).blk t).view.emb (ix2 r k)) = _
      refine congrArg (V c main_arg0) (funext fun a => Fin.ext ?_)
      match a with
      | ⟨0, _⟩ => show win0_1.index t (0 : Fin 2) * 2000 + 1 * r.val = t.val * 2000 + r.val; omega
      | ⟨1, _⟩ => show win0_1.index t (1 : Fin 2) * 64 + 1 * k.val = k.val; omega)
    (fun k q => by
      show V c main_v6 (((cfg0.win 2).blk t).view.emb (ix2 k q)) = _
      refine congrArg (V c main_v6) (funext fun a => Fin.ext ?_)
      match a with
      | ⟨0, _⟩ => show win0_2.index t (0 : Fin 2) * 128 + 1 * k.val = k.val; omega
      | ⟨1, _⟩ => show win0_2.index t (1 : Fin 2) * 64 + 1 * q.val = q.val; omega)
    (fun q => by
      show V c main_v19 (((cfg0.win 3).blk t).view.emb (ix2 (0 : Fin 1) q)) = _
      refine congrArg (V c main_v19) (funext fun a => Fin.ext ?_)
      match a with
      | ⟨0, _⟩ => show win0_3.index t (0 : Fin 2) * 1 + 1 * 0 = 0; omega
      | ⟨1, _⟩ => show win0_3.index t (1 : Fin 2) * 64 + 1 * q.val = q.val; omega)
    ⟨(j 0).val, hj0⟩ ⟨(j 1).val, hj1⟩
  refine (Eq.trans ?_ key).trans ?_
  · rfl
  · show stackedAt (V c main_v18) (V c main_arg0) (V c main_v6) (V c main_v19) _ _
      = stackedAt (V c main_v18) (V c main_arg0) (V c main_v6) (V c main_v19) _ _
    refine congrArg₂ (stackedAt (V c main_v18) (V c main_arg0) (V c main_v6) (V c main_v19)) (Fin.ext ?_) (Fin.ext ?_)
    · show t.val * 2000 + (j 0).val = win0_4.index t (0 : Fin 2) * 2000 + 1 * (j 0).val; omega
    · show (j 1).val = win0_4.index t (1 : Fin 2) * 64 + 1 * (j 1).val; omega

/-- An index of the output array is in point t's block iff each coordinate is in the block's range. -/
theorem mem_blk0 (t : Fin cfg0.N) (i : S50000x64.Idx) :
    i ∈ ((cfg0.win 4).blk t).view.set ↔ ∀ a : Fin 2, win0_4.index t a * S2000x64.size a ≤ (i a).val ∧ (i a).val < win0_4.index t a * S2000x64.size a + S2000x64.size a := by
  show i ∈ ((View.whole main_v20).slice (win0_4.rect t)).set ↔ _
  rw [View.set_slice_whole, Rect.mem_set_unit]
  exact Iff.rfl

/-- Every row is in some point's block: row i in the block of point i / 2000. -/
theorem cover0 (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  have hN : cfg0.N = 25 := N_0
  let t : Fin cfg0.N := ⟨(i 0).val / 2000, by rw [hN]; omega⟩
  obtain ⟨-, -, -, -, -, -, -, -, e40, e41⟩ := idx_facts0 t
  have e40' : win0_4.index t (0 : Fin 2) = (i 0).val / 2000 := e40
  refine ⟨t, flush0_4 t, ?_⟩
  rw [mem_blk0]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 64 ≤ (i 1).val ∧ (i 1).val < win0_4.index t (1 : Fin 2) * 64 + 64; omega

/-- THE FIRST OUTPUT ARRAY after its region: the stacked form of the four arrays as the region finds them. -/
theorem arr0 (c : Dev nD) :
    (dat0 V c).arrAt 4 cfg0.N = stacked (V c main_v18) (V c main_arg0) (V c main_v6) (V c main_v19) :=
  (dat0 V c).arrAt_eq_of_cover 4 _ (fun t _ => flushed0_eq V c t) cover0

end

/-! ## The second pallas_call -/

/-- The second body's block is the block function of its input blocks. -/
theorem out1_eq (x0 x1 : Vec Ideal S2000x64 .f32) (x2 : Vec Ideal S128x64 .f32) (x3 : Vec Ideal S1x64 .f32) :
    out1_4 (F := Ideal) x0 x1 x2 x3 = blockFn x0 x1 x2 x3 := by
  unfold out1_4
  rw [View.canon_unit_zero hz]
  simp only [View.ld_unit_zero (S := S2000x64) hz, View.ld_unit_zero (S := S128x64) hz, View.ld_unit_zero (S := S1x64) hz]
  funext j
  obtain ⟨r, q, rfl⟩ : ∃ (r : Fin 2000) (q : Fin 64), j = ix2 r q := ⟨j 0, j 1, eq_ix2 j⟩
  exact pay1_at x0 x1 x2 x3 r q

/-- The second call's index maps over the grid: the same schedule. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-- The input blocks at a point, at their literal types. -/
abbrev b1_0 (c : Dev nD) (t : Fin cfg1.N) : Vec Ideal S2000x64 .f32 := iblk1 V c 0 t
abbrev b1_1 (c : Dev nD) (t : Fin cfg1.N) : Vec Ideal S2000x64 .f32 := iblk1 V c 1 t
abbrev b1_2 (c : Dev nD) (t : Fin cfg1.N) : Vec Ideal S128x64 .f32 := iblk1 V c 2 t
abbrev b1_3 (c : Dev nD) (t : Fin cfg1.N) : Vec Ideal S1x64 .f32 := iblk1 V c 3 t

/-- WHAT POINT t WRITES BACK is block t of the stacked form of the four arrays as the second region finds them. -/
theorem flushed1_eq (c : Dev nD) (t : Fin cfg1.N) :
    (dat1 V c).flushed 4 t
      = ((cfg1.win 4).blk t).view.read (Elt Ideal) (stacked (V c main_v29) (V c main_v20) (V c main_v9) (V c main_v30)) := by
  show (cfg1.win 4).cut (grid1.coords t) ((dat1 V c).after 4 t) = _
  rw [after1_4, out1_eq]
  obtain ⟨e00, e01, e10, e11, e20, e21, e30, e31, e40, e41⟩ := idx_facts1 t
  have ht : t.val < 25 := Nat.lt_of_lt_of_eq t.isLt N_1
  funext j
  have hj0 : (j 0).val < 2000 := (j 0).isLt
  have hj1 : (j 1).val < 64 := (j 1).isLt
  have key := block_read (V c main_v29) (V c main_v20) (V c main_v9) (V c main_v30)
    (b1_0 V c t) (b1_1 V c t) (b1_2 V c t) (b1_3 V c t) t.val ht
    (fun r k => by
      show V c main_v29 (((cfg1.win 0).blk t).view.emb (ix2 r k)) = _
      refine congrArg (V c main_v29) (funext fun a => Fin.ext ?_)
      match a with
      | ⟨0, _⟩ => show win1_0.index t (0 : Fin 2) * 2000 + 1 * r.val = t.val * 2000 + r.val; omega
      | ⟨1, _⟩ => show win1_0.index t (1 : Fin 2) * 64 + 1 * k.val = k.val; omega)
    (fun r k => by
      show V c main_v20 (((cfg1.win 1).blk t).view.emb (ix2 r k)) = _
      refine congrArg (V c main_v20) (funext fun a => Fin.ext ?_)
      match a with
      | ⟨0, _⟩ => show win1_1.index t (0 : Fin 2) * 2000 + 1 * r.val = t.val * 2000 + r.val; omega
      | ⟨1, _⟩ => show win1_1.index t (1 : Fin 2) * 64 + 1 * k.val = k.val; omega)
    (fun k q => by
      show V c main_v9 (((cfg1.win 2).blk t).view.emb (ix2 k q)) = _
      refine congrArg (V c main_v9) (funext fun a => Fin.ext ?_)
      match a with
      | ⟨0, _⟩ => show win1_2.index t (0 : Fin 2) * 128 + 1 * k.val = k.val; omega
      | ⟨1, _⟩ => show win1_2.index t (1 : Fin 2) * 64 + 1 * q.val = q.val; omega)
    (fun q => by
      show V c main_v30 (((cfg1.win 3).blk t).view.emb (ix2 (0 : Fin 1) q)) = _
      refine congrArg (V c main_v30) (funext fun a => Fin.ext ?_)
      match a with
      | ⟨0, _⟩ => show win1_3.index t (0 : Fin 2) * 1 + 1 * 0 = 0; omega
      | ⟨1, _⟩ => show win1_3.index t (1 : Fin 2) * 64 + 1 * q.val = q.val; omega)
    ⟨(j 0).val, hj0⟩ ⟨(j 1).val, hj1⟩
  refine (Eq.trans ?_ key).trans ?_
  · rfl
  · show stackedAt (V c main_v29) (V c main_v20) (V c main_v9) (V c main_v30) _ _
      = stackedAt (V c main_v29) (V c main_v20) (V c main_v9) (V c main_v30) _ _
    refine congrArg₂ (stackedAt (V c main_v29) (V c main_v20) (V c main_v9) (V c main_v30)) (Fin.ext ?_) (Fin.ext ?_)
    · show t.val * 2000 + (j 0).val = win1_4.index t (0 : Fin 2) * 2000 + 1 * (j 0).val; omega
    · show (j 1).val = win1_4.index t (1 : Fin 2) * 64 + 1 * (j 1).val; omega

/-- An index of the second output array is in point t's block iff each coordinate is in the block's range. -/
theorem mem_blk1 (t : Fin cfg1.N) (i : S50000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v31).slice (win1_4.rect t)).set ↔ _
  rw [View.set_slice_whole, Rect.mem_set_unit]
  exact Iff.rfl

/-- Every row is in some point's block: row i in the block of point i / 2000. -/
theorem cover1 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 25 := N_1
  let t : Fin cfg1.N := ⟨(i 0).val / 2000, by rw [hN]; omega⟩
  obtain ⟨-, -, -, -, -, -, -, -, e40, e41⟩ := idx_facts1 t
  have e40' : win1_4.index t (0 : Fin 2) = (i 0).val / 2000 := e40
  refine ⟨t, flush1_4 t, ?_⟩
  rw [mem_blk1]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 64 ≤ (i 1).val ∧ (i 1).val < win1_4.index t (1 : Fin 2) * 64 + 64; omega

/-- THE SECOND OUTPUT ARRAY after its region: the stacked form of the four arrays as the region finds them. -/
theorem arr1 (c : Dev nD) :
    (dat1 V c).arrAt 4 cfg1.N = stacked (V c main_v29) (V c main_v20) (V c main_v9) (V c main_v30) :=
  (dat1 V c).arrAt_eq_of_cover 4 _ (fun t _ => flushed1_eq V c t) cover1

end

end Cert.KernelIdeal.Region

end
-- ==== Proof.KernelHost.lean ====
/-
  The kernel program's result buffer, at the ideal values, as the two-layer function of Spec over its own aggregation.

  Around its two pallas_calls the program runs host operations: it splits the edge list into source and destination
  indices, stacks each layer's two transposed weight matrices, and for each layer gathers the (bf16-rounded) feature rows
  at the source indices, scales them by the edge weights and scatter-adds them at the destination indices. Rounding to
  bf16 and back is the identity on the ideal values, so the aggregate depends on the features only through the plain
  gather. Each pallas_call leaves the stacked form (KernelRegion) of the aggregate, the features, the stacked weights and
  the bias row; the stacked weights read at row k < 64 are the first matrix's column k and at row 64 + k the second's, so
  the stacked form is the layer (Spec), and the second call works on the first call's output.
-/
import proofs.«411121_j32925219291717_2_alg».proof.Proof.Gen.KernelIdeal.Frame
import proofs.«411121_j32925219291717_2_alg».proof.Proof.KernelRegion
import Idealize.ShloMosaic.Lib.StableHlo.Run
import Idealize.ShloMosaic.Lib.ValueLayout

set_option maxRecDepth 16384

noncomputable section

namespace Cert.KernelIdeal.HostFold

open Idealize.ShloMosaic Idealize.ShloMosaic.TcCoe Idealize.ShloMosaic.ValueIdx Idealize.SL.Sem Idealize.ShloMosaic.StableHlo
open Cert.KernelIdeal Cert.KernelIdeal.Gen Cert.Spec

/-! ## The host side's terms -/

/-- The source indices: row 0 of the edge list. -/
def srcK (x1 : IVec S2x1600000 32) : IVec S1600000 32 :=
  shapeCast S1600000 (extractStridedSlice S1x1600000 ![0, 0] x1 slices_S2x1600000_S1x1600000_0_0) shapeCasts_S1x1600000_S1600000

/-- The destination indices: row 1 of the edge list. -/
def dstK (x1 : IVec S2x1600000 32) : IVec S1600000 32 :=
  shapeCast S1600000 (extractStridedSlice S1x1600000 ![1, 0] x1 slices_S2x1600000_S1x1600000_1_0) shapeCasts_S1x1600000_S1600000

/-- The aggregation from given index vectors: rows of y gathered at `src` (through bf16 and back), scaled by the edge
    weights, scatter-added at `dst` into zeros. -/
def aggRaw (src dst : IVec S1600000 32) (w : FVec Ideal S1600000 .f32) (y : FVec Ideal S50000x64 .f32) : FVec Ideal S50000x64 .f32 :=
  Host.scatterAdd (F := Ideal) scatter_S50000x64_S1600000x1_S1600000x64_1_0_0_1
    (broadcastInDim S50000x64 ![] bcast_S_S50000x64 (constant S_ .f32 0x00000000#32))
    (broadcastInDim S1600000x1 ![0] bcast_S1600000_S1600000x1_0 dst)
    (mulf (F := Ideal)
      (broadcastInDim S1600000x64 ![0, 1] bcast_S1600000x1_S1600000x64_0_1 (broadcastInDim S1600000x1 ![0] bcast_S1600000_S1600000x1_0 w))
      (extf .f32 (Host.gather gather_S50000x64_S1600000x1_S1600000x64_1_0_n_n_0_1_164 (truncf .bf16 y bitsLt_bf16_f32)
        (broadcastInDim S1600000x1 ![0] bcast_S1600000_S1600000x1_0 src) : FVec Ideal S1600000x64 .bf16) bitsLt_bf16_f32))

/-- The kernel program's aggregation of node features y over the edge list x1 with weights x2. -/
def aggK (x1 : IVec S2x1600000 32) (x2 : FVec Ideal S1600000 .f32) (y : FVec Ideal S50000x64 .f32) : FVec Ideal S50000x64 .f32 :=
  aggRaw (srcK x1) (dstK x1) x2 y

/-- Two weight matrices transposed and stacked: 128 × 64. -/
def wsK (a b : FVec Ideal S64x64 .f32) : FVec Ideal S128x64 .f32 :=
  concatenate S128x64 0 [⟨S64x64, transpose S64x64 [1, 0] a transposes_S64x64_S64x64_1_0⟩,
    ⟨S64x64, transpose S64x64 [1, 0] b transposes_S64x64_S64x64_1_0⟩] concatenates_S64x64_S64x64_S128x64_d0

/-- The bias as a row. -/
def rowK (b : FVec Ideal S64 .f32) : FVec Ideal S1x64 .f32 := shapeCast S1x64 b shapeCasts_S64_S1x64

/-! ## The stacked weights and the bias row, read at an entry -/

theorem wsK_lo (a b : FVec Ideal S64x64 .f32) (k q : Fin 64) : wsK a b (ix2 (lo k) q) = a (ix2 q k) := by
  unfold wsK
  rw [concatenate_pair_apply_left 0 _ _ concatenates_S64x64_S64x64_S128x64_d0 (ix2 (lo k) q) rfl (ix2 k q)
    (fun c => match c with | ⟨0, _⟩ => rfl | ⟨1, _⟩ => rfl)]
  exact transpose_ix2_apply a transposes_S64x64_S64x64_1_0 k q

theorem wsK_hi (a b : FVec Ideal S64x64 .f32) (k q : Fin 64) : wsK a b (ix2 (hi k) q) = b (ix2 q k) := by
  unfold wsK
  rw [concatenate_pair_apply_right 0 _ _ concatenates_S64x64_S64x64_S128x64_d0 (ix2 (hi k) q) rfl rfl (ix2 k q)
    (fun c hc => match c with | ⟨0, _⟩ => absurd rfl hc | ⟨1, _⟩ => rfl) rfl]
  exact transpose_ix2_apply b transposes_S64x64_S64x64_1_0 k q

theorem rowK_at (b : FVec Ideal S64 .f32) (q : Fin 64) : rowK b (ix2 (0 : Fin 1) q) = b (ix1 q) := by
  unfold rowK
  rw [shapeCast_addUnit_apply ![64] b shapeCasts_S64_S1x64 (ix2 (0 : Fin 1) q)]
  exact congrArg b (funext fun a => match a with | ⟨0, _⟩ => rfl)

/-- With the stacked weights and the bias row the stacked form is the layer. -/
theorem stacked_ws (agg y : FVec Ideal S50000x64 .f32) (wrel : FVec Ideal S64x64 .f32) (b : FVec Ideal S64 .f32) (wroot : FVec Ideal S64x64 .f32) :
    stacked agg y (wsK wrel wroot) (rowK b) = layer agg y wrel b wroot :=
  stacked_eq_layer agg y (wsK wrel wroot) (rowK b) wrel b wroot (wsK_lo wrel wroot) (wsK_hi wrel wroot) (rowK_at b)

/-! ## The buffers at the two regions' entries and exits -/

variable (m : (ℓ : Loc nD τ sig) → Buf (Elt Ideal) ℓ) (ρ : Dev nD → PrngReg) (c : Dev nD)

set_option maxHeartbeats 1000000 in
/-- At the first region's entry: the aggregate of the input features. -/
theorem e3_agg : V3 m ρ c main_v18 = aggK (m ((c : Thread nD τ).loc main_arg1)) (m ((c : Thread nD τ).loc main_arg2)) (m ((c : Thread nD τ).loc main_arg0)) := by
  unfold aggK aggRaw srcK dstK
  dsimp only [V3, W3, W2, W1, W0]
  simp only [hostOps0, hostOps0_1, hostOps0_2]
  after_results
  rfl

/-- At the first region's entry: the input features. -/
theorem e3_x : V3 m ρ c main_arg0 = (m ((c : Thread nD τ).loc main_arg0)) := by
  dsimp only [V3, W3, W2, W1, W0]
  simp only [hostOps0, hostOps0_1, hostOps0_2]
  after_results

/-- At the first region's entry: the first layer's stacked weights. -/
theorem e3_ws : V3 m ρ c main_v6 = wsK (m ((c : Thread nD τ).loc main_arg3)) (m ((c : Thread nD τ).loc main_arg5)) := by
  dsimp only [V3, W3, W2, W1, W0]
  simp only [hostOps0, hostOps0_1, hostOps0_2]
  after_results
  rfl

/-- At the first region's entry: the first layer's bias row. -/
theorem e3_row : V3 m ρ c main_v19 = rowK (m ((c : Thread nD τ).loc main_arg4)) := by
  dsimp only [V3, W3, W2, W1, W0]
  simp only [hostOps0, hostOps0_1, hostOps0_2]
  after_results
  rfl

/-- The first layer's output. -/
def hK : FVec Ideal S50000x64 .f32 := layer (aggK (m ((c : Thread nD τ).loc main_arg1)) (m ((c : Thread nD τ).loc main_arg2)) (m ((c : Thread nD τ).loc main_arg0))) (m ((c : Thread nD τ).loc main_arg0)) (m ((c : Thread nD τ).loc main_arg3)) (m ((c : Thread nD τ).loc main_arg4)) (m ((c : Thread nD τ).loc main_arg5))

/-- At the first region's exit its output buffer holds the first layer's output. -/
theorem e4_h : W4 m ρ c (Proc.devRef .tc main_v20) = hK m c := by
  refine (W4_arr m ρ c 4).trans ?_
  rw [Region.arr0 (V3 m ρ) c, e3_agg, e3_x, e3_ws, e3_row, stacked_ws]
  rfl

/-- The source indices, the destination indices, the edge weights, the second layer's stacked weights and bias are what
    the host operations before the first region left: the region writes none of them. -/
theorem e4_src : W4 m ρ c (Proc.devRef .tc main_v1) = srcK (m ((c : Thread nD τ).loc main_arg1)) := by
  refine (W4_of_ne m ρ c main_v1 (by decide)).trans ?_
  dsimp only [W3, W2, W1, W0]
  simp only [hostOps0, hostOps0_1, hostOps0_2]
  after_results
  rfl

theorem e4_dst : W4 m ρ c (Proc.devRef .tc main_v3) = dstK (m ((c : Thread nD τ).loc main_arg1)) := by
  refine (W4_of_ne m ρ c main_v3 (by decide)).trans ?_
  dsimp only [W3, W2, W1, W0]
  simp only [hostOps0, hostOps0_1, hostOps0_2]
  after_results
  rfl

theorem e4_w : W4 m ρ c (Proc.devRef .tc main_arg2) = (m ((c : Thread nD τ).loc main_arg2)) := by
  refine (W4_of_ne m ρ c main_arg2 (by decide)).trans ?_
  dsimp only [W3, W2, W1, W0]
  simp only [hostOps0, hostOps0_1, hostOps0_2]
  after_results

theorem e4_ws : W4 m ρ c (Proc.devRef .tc main_v9) = wsK (m ((c : Thread nD τ).loc main_arg6)) (m ((c : Thread nD τ).loc main_arg8)) := by
  refine (W4_of_ne m ρ c main_v9 (by decide)).trans ?_
  dsimp only [W3, W2, W1, W0]
  simp only [hostOps0, hostOps0_1, hostOps0_2]
  after_results
  rfl

theorem e4_b : W4 m ρ c (Proc.devRef .tc main_arg7) = (m ((c : Thread nD τ).loc main_arg7)) := by
  refine (W4_of_ne m ρ c main_arg7 (by decide)).trans ?_
  dsimp only [W3, W2, W1, W0]
  simp only [hostOps0, hostOps0_1, hostOps0_2]
  after_results

/-- At the second region's entry: the aggregate of the first layer's output. -/
theorem e7_agg : V7 m ρ c main_v29 = aggK (m ((c : Thread nD τ).loc main_arg1)) (m ((c : Thread nD τ).loc main_arg2)) (hK m c) := by
  have h : V7 m ρ c main_v29 = aggRaw (W4 m ρ c (Proc.devRef .tc main_v1)) (W4 m ρ c (Proc.devRef .tc main_v3))
      (W4 m ρ c (Proc.devRef .tc main_arg2)) (W4 m ρ c (Proc.devRef .tc main_v20)) := by
    dsimp only [V7, W7, W6, W5]
    simp only [hostOps1, hostOps1_1, hostOps1_2]
    after_results
    rfl
  rw [h, e4_src, e4_dst, e4_w, e4_h]
  rfl

/-- At the second region's entry: the first layer's output. -/
theorem e7_h : V7 m ρ c main_v20 = hK m c := by
  refine Eq.trans ?_ (e4_h m ρ c)
  dsimp only [V7, W7, W6, W5]
  simp only [hostOps1, hostOps1_1, hostOps1_2]
  after_results

/-- At the second region's entry: the second layer's stacked weights. -/
theorem e7_ws : V7 m ρ c main_v9 = wsK (m ((c : Thread nD τ).loc main_arg6)) (m ((c : Thread nD τ).loc main_arg8)) := by
  refine Eq.trans ?_ (e4_ws m ρ c)
  dsimp only [V7, W7, W6, W5]
  simp only [hostOps1, hostOps1_1, hostOps1_2]
  after_results

/-- At the second region's entry: the second layer's bias row. -/
theorem e7_row : V7 m ρ c main_v30 = rowK (m ((c : Thread nD τ).loc main_arg7)) := by
  have h : V7 m ρ c main_v30 = rowK (W4 m ρ c (Proc.devRef .tc main_arg7)) := by
    dsimp only [V7, W7, W6, W5]
    simp only [hostOps1, hostOps1_1, hostOps1_2]
    after_results
    rfl
  rw [h, e4_b]

/-- THE RESULT BUFFER at the end of the run: two layers over the kernel program's aggregation. -/
theorem result_eq : W8 m ρ c (Proc.devRef .tc main_v31) = net (aggK (m ((c : Thread nD τ).loc main_arg1)) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 4).trans ?_
  rw [Region.arr1 (V7 m ρ) c, e7_agg, e7_h, e7_ws, e7_row, stacked_ws]
  rfl

end Cert.KernelIdeal.HostFold

end
-- ==== Proof.RefValue.lean ====
/-
  The reference program's result, at the ideal values, as the two-layer function of Spec over its own aggregation.

  The reference aggregates by gathering the rows named by the (wrapped) source indices, scaling each gathered row by its
  edge weight and scatter-adding the rows at the destination indices; each layer then is
  (agg · W_relᵀ + b) + y · W_rootᵀ clamped below at 0, which read at an entry is Spec's `layerAt`: a `dot_general` against a
  transposed matrix is the sum over k of the left row times the matrix's row, and the bias broadcast reads the bias at the
  entry's column.
-/
import proofs.«411121_j32925219291717_2_alg».proof.Proof.Gen.ReferenceIdeal.Read
import proofs.«411121_j32925219291717_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Spec

variable (x0 : (⟨S50000x64, .f32⟩ : BufTy).Contents (Elt Ideal)) (x1 : (⟨S2x1600000, .i32⟩ : BufTy).Contents (Elt Ideal))
  (x2 : (⟨S1600000, .f32⟩ : BufTy).Contents (Elt Ideal)) (x3 : (⟨S64x64, .f32⟩ : BufTy).Contents (Elt Ideal))
  (x4 : (⟨S64, .f32⟩ : BufTy).Contents (Elt Ideal)) (x5 x6 : (⟨S64x64, .f32⟩ : BufTy).Contents (Elt Ideal))
  (x7 : (⟨S64, .f32⟩ : BufTy).Contents (Elt Ideal)) (x8 : (⟨S64x64, .f32⟩ : BufTy).Contents (Elt Ideal))

/-- The reference's aggregation of node features y: rows gathered at the wrapped source indices, scaled by the edge
    weights, scatter-added at the destination indices into zeros. -/
def aggR (y : FVec Ideal S50000x64 .f32) : FVec Ideal S50000x64 .f32 :=
  Host.scatterAdd (F := Ideal) scatter_S50000x64_S1600000x1_S1600000x64_1_0_0_1 (val_main_v14 (F := Ideal)) (val_main_v15 (F := Ideal) x1)
    (mulf (F := Ideal) (val_main_v12 (F := Ideal) x2)
      (Host.gather gather_S50000x64_S1600000x1_S1600000x64_1_0_n_n_0_1_164 y (val_main_v10 (F := Ideal) x1) : FVec Ideal S1600000x64 .f32))

/-- The first aggregate is the aggregation of the input features. -/
theorem agg1_eq : val_main_v16 (F := Ideal) x0 x1 x2 = aggR x1 x2 x0 := rfl

/-- The second aggregate is the same aggregation of the first layer's output. -/
theorem agg2_eq : val_main_v38 (F := Ideal) x0 x1 x2 x3 x4 x5 = aggR x1 x2 (val_main_v25 (F := Ideal) x0 x1 x2 x3 x4 x5) := rfl

/-- The first layer, read at every entry. -/
theorem layer1_eq : val_main_v25 (F := Ideal) x0 x1 x2 x3 x4 x5 = layer (val_main_v16 (F := Ideal) x0 x1 x2) x0 x3 x4 x5 := by
  funext i
  rw [val_main_v25_apply, val_main_v24_apply, val_main_v21_apply, val_main_v18_apply, val_main_v23_apply, val_main_v20_apply,
    val_main_v19_apply, val_main_call0_v0_apply, val_main_call0_cst_apply]
  simp only [val_main_v17_apply, val_main_v22_apply]
  have e1 : ∀ k : Fin 64, lidx_main_v18 i k = ix2 (⟨(i 0).val, (i 0).isLt⟩ : Fin 50000) k :=
    fun k => funext fun a => match a with | ⟨0, _⟩ => rfl | ⟨1, _⟩ => rfl
  have e2 : ∀ k : Fin 64, idx_main_v17 (ridx_main_v18 i k) = ix2 (⟨(i 1).val, (i 1).isLt⟩ : Fin 64) k :=
    fun k => funext fun a => match a with | ⟨0, _⟩ => rfl | ⟨1, _⟩ => rfl
  have e3 : idx_main_v19 (idx_main_v20 i) = ix1 (⟨(i 1).val, (i 1).isLt⟩ : Fin 64) :=
    funext fun a => match a with | ⟨0, _⟩ => rfl
  have e4 : ∀ k : Fin 64, lidx_main_v23 i k = ix2 (⟨(i 0).val, (i 0).isLt⟩ : Fin 50000) k :=
    fun k => funext fun a => match a with | ⟨0, _⟩ => rfl | ⟨1, _⟩ => rfl
  have e5 : ∀ k : Fin 64, idx_main_v22 (ridx_main_v23 i k) = ix2 (⟨(i 1).val, (i 1).isLt⟩ : Fin 64) k :=
    fun k => funext fun a => match a with | ⟨0, _⟩ => rfl | ⟨1, _⟩ => rfl
  simp only [e1, e2, e3, e4, e5]
  rfl

/-- The second layer, read at every entry. -/
theorem layer2_eq : val_main_v47 (F := Ideal) x0 x1 x2 x3 x4 x5 x6 x7 x8
    = layer (val_main_v38 (F := Ideal) x0 x1 x2 x3 x4 x5) (val_main_v25 (F := Ideal) x0 x1 x2 x3 x4 x5) x6 x7 x8 := by
  funext i
  rw [val_main_v47_apply, val_main_v46_apply, val_main_v43_apply, val_main_v40_apply, val_main_v45_apply, val_main_v42_apply,
    val_main_v41_apply, val_main_call1_v0_apply, val_main_call1_cst_apply]
  simp only [val_main_v39_apply, val_main_v44_apply]
  have e1 : ∀ k : Fin 64, lidx_main_v40 i k = ix2 (⟨(i 0).val, (i 0).isLt⟩ : Fin 50000) k :=
    fun k => funext fun a => match a with | ⟨0, _⟩ => rfl | ⟨1, _⟩ => rfl
  have e2 : ∀ k : Fin 64, idx_main_v39 (ridx_main_v40 i k) = ix2 (⟨(i 1).val, (i 1).isLt⟩ : Fin 64) k :=
    fun k => funext fun a => match a with | ⟨0, _⟩ => rfl | ⟨1, _⟩ => rfl
  have e3 : idx_main_v41 (idx_main_v42 i) = ix1 (⟨(i 1).val, (i 1).isLt⟩ : Fin 64) :=
    funext fun a => match a with | ⟨0, _⟩ => rfl
  have e4 : ∀ k : Fin 64, lidx_main_v45 i k = ix2 (⟨(i 0).val, (i 0).isLt⟩ : Fin 50000) k :=
    fun k => funext fun a => match a with | ⟨0, _⟩ => rfl | ⟨1, _⟩ => rfl
  have e5 : ∀ k : Fin 64, idx_main_v44 (ridx_main_v45 i k) = ix2 (⟨(i 1).val, (i 1).isLt⟩ : Fin 64) k :=
    fun k => funext fun a => match a with | ⟨0, _⟩ => rfl | ⟨1, _⟩ => rfl
  simp only [e1, e2, e3, e4, e5]
  rfl

/-- THE REFERENCE'S RESULT: two layers over its own aggregation. -/
theorem result_eq : val_main_v47 (F := Ideal) x0 x1 x2 x3 x4 x5 x6 x7 x8 = net (aggR x1 x2) x0 x3 x4 x5 x6 x7 x8 := by
  rw [layer2_eq, agg2_eq, layer1_eq, agg1_eq]
  rfl

end Cert.ReferenceIdeal.RefValue

end
-- ==== Proof.IndexDomain.lean ====
/-
  What the precondition says about the source indices.

  The precondition is a conjunction that ends with "every source index (row 0 of the edge list) is ≥ 0", printed as a signed
  compare against 0 reduced by `and` over all edges. When the whole conjunction is 1, that last reduction is 1, so the compare is
  1 at every edge; and a 32-bit word that is ≥ 0 as a signed number is not < 0.
-/
import proofs.«411121_j32925219291717_2_alg».proof.Pre_finite_inputs
import Idealize.ShloMosaic.Lib.ReduceAll
import Idealize.ShloMosaic.Lib.ValueIdx
import Idealize.ShloMosaic.PureOps.Ideal

noncomputable section

namespace Cert.Proof.IndexDomain

open Idealize.ShloMosaic Cert.Pre_finite_inputs

/-- A signed 32-bit word that is ≥ 0 is not < 0. -/
theorem not_slt_zero (x : BitVec 32) (h : IntOp.cmpi .sge x 0#32 = 1#1) : IntOp.cmpi .slt x 0#32 = 0#1 := by
  unfold IntOp.cmpi at h ⊢
  simp only [BitVec.sle, BitVec.slt] at h ⊢
  by_cases hx : x.toInt < (0#32 : BitVec 32).toInt
  · have hn : ¬ ((0#32 : BitVec 32).toInt ≤ x.toInt) := by omega
    rw [decide_eq_false hn] at h
    exact absurd h (by decide)
  · rw [decide_eq_false hx]; rfl

instance : Subsingleton S_.Idx := ⟨fun a b => funext fun d => d.elim0⟩

variable [Cert.Pre_finite_inputs.Facts]
open Cert.Pre_finite_inputs.Facts

/-- Under the precondition every source index is ≥ 0 as a signed number. -/
theorem src_nonneg (a0 : FVec Ideal S50000x64 .f32) (a1 : IVec S2x1600000 32) (a2 : FVec Ideal S1600000 .f32)
    (a3 : FVec Ideal S64x64 .f32) (a4 : FVec Ideal S64 .f32) (a5 a6 : FVec Ideal S64x64 .f32) (a7 : FVec Ideal S64 .f32)
    (a8 : FVec Ideal S64x64 .f32)
    (h : Cert.Pre_finite_inputs.fn (F := Ideal) a0 a1 a2 a3 a4 a5 a6 a7 a8 = fun _ => 1#1) (e : S1600000.Idx) :
    IntOp.cmpi .sge (shapeCast S1600000 (extractStridedSlice S1x1600000 ![0, 0] a1 slices_S2x1600000_S1x1600000_0_0)
      shapeCasts_S1x1600000_S1600000 e) 0#32 = 1#1 := by
  have h0 := congrFun h ValueIdx.ix0
  unfold Cert.Pre_finite_inputs.fn Cert.Pre_finite_inputs.fn_part1 Cert.Pre_finite_inputs.fn_part2 at h0
  have h1 := (IntOp.andi_eq_one.1 h0).2
  exact Host.reduce_andi_all _ _ _ _ _ h1 e

end Cert.Proof.IndexDomain

end
-- ==== Proof.Bridge.lean ====
/-
  The two programs aggregate alike where every source index is ≥ 0.

  The reference reads row src of the features after wrapping a negative src to src + 50000; the kernel program reads row
  src directly. Both then hand the index to the same gather, which clamps it into range, so at a negative src the two read
  different rows, and at src ≥ 0 the wrap is the identity and the index vectors are equal. The kernel program also rounds
  the features to bf16 before the gather and widens the gathered rows back, which changes nothing on the ideal values.
  Everything else — the edge weights' broadcast, the product, the scatter-add at the destination indices into zeros — is
  the same operations on both sides.
-/
import proofs.«411121_j32925219291717_2_alg».proof.Proof.KernelHost
import proofs.«411121_j32925219291717_2_alg».proof.Proof.RefValue
import proofs.«411121_j32925219291717_2_alg».proof.Proof.IndexDomain

noncomputable section

namespace Cert.Proof.Bridge

open Idealize.ShloMosaic Idealize.ShloMosaic.ValueIdx

/-- Where every source index is ≥ 0, the reference's wrapped source indices are the source indices themselves. -/
theorem wrapped_src (x1 : IVec Cert.KernelIdeal.S2x1600000 32)
    (hsrc : ∀ e, IntOp.cmpi .sge (Cert.KernelIdeal.HostFold.srcK x1 e) 0#32 = 1#1) :
    Cert.ReferenceIdeal.Read.val_main_v9 (F := Ideal) x1 = Cert.KernelIdeal.HostFold.srcK x1 := by
  funext e
  rw [Cert.ReferenceIdeal.Read.val_main_v9_apply, Cert.ReferenceIdeal.Read.val_main_v6_apply,
    Cert.ReferenceIdeal.Read.val_main_v5_apply, Cert.ReferenceIdeal.Read.val_main_c_apply]
  have h1 : Cert.ReferenceIdeal.Read.val_main_v1 (F := Ideal) x1 = Cert.KernelIdeal.HostFold.srcK x1 := rfl
  rw [h1, Cert.Proof.IndexDomain.not_slt_zero _ (hsrc e)]
  exact select_zero _ _

set_option maxHeartbeats 1000000 in
/-- Where every source index is ≥ 0, the two programs' aggregations of any node features agree. -/
theorem agg_eq (x1 : IVec Cert.KernelIdeal.S2x1600000 32) (x2 : FVec Ideal Cert.KernelIdeal.S1600000 .f32)
    (hsrc : ∀ e, IntOp.cmpi .sge (Cert.KernelIdeal.HostFold.srcK x1 e) 0#32 = 1#1)
    (y : FVec Ideal Cert.KernelIdeal.S50000x64 .f32) :
    Cert.KernelIdeal.HostFold.aggK x1 x2 y = Cert.ReferenceIdeal.RefValue.aggR x1 x2 y := by
  unfold Cert.ReferenceIdeal.RefValue.aggR Cert.ReferenceIdeal.Read.val_main_v10
  rw [wrapped_src x1 hsrc]
  rfl

/-- The same as functions of the node features. -/
theorem agg_fun_eq (x1 : IVec Cert.KernelIdeal.S2x1600000 32) (x2 : FVec Ideal Cert.KernelIdeal.S1600000 .f32)
    (hsrc : ∀ e, IntOp.cmpi .sge (Cert.KernelIdeal.HostFold.srcK x1 e) 0#32 = 1#1) :
    Cert.KernelIdeal.HostFold.aggK x1 x2 = Cert.ReferenceIdeal.RefValue.aggR x1 x2 :=
  funext (agg_eq x1 x2 hsrc)

end Cert.Proof.Bridge

end
-- ==== Proof.lean ====
/-
  A two-layer graph convolution: the kernel program against its reference, over the extended reals.

  Each layer is  relu( agg · W_relᵀ + b + y · W_rootᵀ )  with  agg = the edge-weighted sum of the source rows of y at
  each destination node. The kernel program computes the dense part in a pallas_call over blocks of 2000 nodes as ONE product
  of the row (agg, y) of length 128 with the two transposed weight matrices stacked (Spec: the same number, by splitting the
  sum and reordering the addition), rounds through bf16 on the way (the identity on the ideal values), and reads the source
  rows at the source indices as they are, where the reference first wraps a negative index. Under the precondition —
  every float input finite (never used) and every source index ≥ 0 — the wrap is the identity, the two aggregations
  agree (Bridge), and both results are Spec's `net` over that one aggregation:
  the kernel's by reading its run's last boundary (KernelRun, KernelRegion, KernelHost), the reference's from its run read
  one operation at a time (RefValue).
  The frames are the generated ones; the reference's is its run with the result dropped; the ideal pass rewrote nothing,
  so the idealization claim is trivial.
-/
import proofs.«411121_j32925219291717_2_alg».proof.Defs
import proofs.«411121_j32925219291717_2_alg».proof.Proof.Gen.Kernel
import proofs.«411121_j32925219291717_2_alg».proof.Proof.Gen.Kernel.Skeleton
import proofs.«411121_j32925219291717_2_alg».proof.Proof.Gen.Kernel.Launch
import proofs.«411121_j32925219291717_2_alg».proof.Proof.Gen.Kernel.Points
import proofs.«411121_j32925219291717_2_alg».proof.Proof.Gen.Kernel.Frame
import proofs.«411121_j32925219291717_2_alg».proof.Proof.Gen.KernelIdeal
import proofs.«411121_j32925219291717_2_alg».proof.Proof.Gen.KernelIdeal.Skeleton
import proofs.«411121_j32925219291717_2_alg».proof.Proof.Gen.KernelIdeal.Launch
import proofs.«411121_j32925219291717_2_alg».proof.Proof.Gen.KernelIdeal.Points
import proofs.«411121_j32925219291717_2_alg».proof.Proof.Gen.KernelIdeal.Frame
import proofs.«411121_j32925219291717_2_alg».proof.Proof.Gen.ReferenceIdeal
import proofs.«411121_j32925219291717_2_alg».proof.Proof.Gen.ReferenceIdeal.Run
import proofs.«411121_j32925219291717_2_alg».proof.Proof.Gen.ReferenceIdeal.Read
import proofs.«411121_j32925219291717_2_alg».proof.Proof.Gen.Pre_finite_inputs
import proofs.«411121_j32925219291717_2_alg».proof.Proof.KernelRun
import proofs.«411121_j32925219291717_2_alg».proof.Proof.KernelHost
import proofs.«411121_j32925219291717_2_alg».proof.Proof.RefValue
import proofs.«411121_j32925219291717_2_alg».proof.Proof.IndexDomain
import proofs.«411121_j32925219291717_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the two-layer function of Spec over one aggregation: the precondition's last conjunct makes the
    reference's index wrap the identity, so its aggregation is the kernel program's. -/
theorem algebraic : Cert.algebraic_KernelIdeal_ReferenceIdeal := by
  intro m ρ m' ρ' hpre hagree
  have hsrc : ∀ (c : Dev Cert.KernelIdeal.nD) e, IntOp.cmpi .sge (Cert.KernelIdeal.HostFold.srcK
      (m ((c.tc : Thread Cert.KernelIdeal.nD Cert.KernelIdeal.τ).loc Cert.KernelIdeal.main_arg1)) e) 0#32 = 1#1 :=
    fun c e => Cert.Proof.IndexDomain.src_nonneg _ _ _ _ _ _ _ _ _ (hpre c) e
  refine ⟨fun c => Cert.Spec.net (Cert.KernelIdeal.HostFold.aggK
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.HostFold.result_eq m ρ c), (h c).2⟩)
      (Cert.KernelIdeal.RunValue.run_main (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v47_eq, Cert.ReferenceIdeal.RefValue.result_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2,
      ← Cert.Proof.Bridge.agg_fun_eq _ _ (hsrc c)]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
